-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x8192 : Shape := ⟨2, ![64, 8192]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : IVec S8192x64 32) (main_arg1 : IVec S64x8192 32) (main_arg2 : FVec F S16 .f32) (main_arg3 : FVec F S16 .f32) : IVec S_ 1 :=
  let main_v0 : FVec F S16 .f32 := Host.absf main_arg2
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S16 .f32 := Host.absf main_arg3
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Kernel.lean ====
abbrev S8192x64 : Shape := ⟨2, ![8192, 64]⟩
abbrev S64x8192 : Shape := ⟨2, ![64, 8192]⟩
abbrev S16 : Shape := ⟨1, ![16]⟩
abbrev S_ : Shape := ⟨0, ![]⟩
abbrev S8192x64x1 : Shape := ⟨3, ![8192, 64, 1]⟩
abbrev S64x8192x1 : Shape := ⟨3, ![64, 8192, 1]⟩
abbrev S8192x8192 : Shape := ⟨2, ![8192, 8192]⟩
abbrev S2048x64 : Shape := ⟨2, ![2048, 64]⟩
abbrev S64x2048 : Shape := ⟨2, ![64, 2048]⟩
abbrev S2048x2048 : Shape := ⟨2, ![2048, 2048]⟩

abbrev nBuf : Space → Nat
  | .hbm => 25
  | .vmem => 6
  | .smem => 0
  | _ => 0

abbrev bufTy : (tb : Table) → Fin (tcTables nBuf tb) → BufTy
  | .hbm, ⟨0, _⟩ => ⟨S8192x64, .i32⟩
  | .hbm, ⟨1, _⟩ => ⟨S64x8192, .i32⟩
  | .hbm, ⟨2, _⟩ => ⟨S16, .f32⟩
  | .hbm, ⟨3, _⟩ => ⟨S16, .f32⟩
  | .hbm, ⟨4, _⟩ => ⟨S16, .bf16⟩
  | .hbm, ⟨5, _⟩ => ⟨S_, .i32⟩
  | .hbm, ⟨6, _⟩ => ⟨S8192x64, .i32⟩
  | .hbm, ⟨7, _⟩ => ⟨S8192x64, .i1⟩
  | .hbm, ⟨8, _⟩ => ⟨S_, .i32⟩
  | .hbm, ⟨9, _⟩ => ⟨S8192x64, .i32⟩
  | .hbm, ⟨10, _⟩ => ⟨S8192x64, .i32⟩
  | .hbm, ⟨11, _⟩ => ⟨S8192x64, .i32⟩
  | .hbm, ⟨12, _⟩ => ⟨S8192x64x1, .i32⟩
  | .hbm, ⟨13, _⟩ => ⟨S8192x64, .bf16⟩
  | .hbm, ⟨14, _⟩ => ⟨S16, .bf16⟩
  | .hbm, ⟨15, _⟩ => ⟨S_, .i32⟩
  | .hbm, ⟨16, _⟩ => ⟨S64x8192, .i32⟩
  | .hbm, ⟨17, _⟩ => ⟨S64x8192, .i1⟩
  | .hbm, ⟨18, _⟩ => ⟨S_, .i32⟩
  | .hbm, ⟨19, _⟩ => ⟨S64x8192, .i32⟩
  | .hbm, ⟨20, _⟩ => ⟨S64x8192, .i32⟩
  | .hbm, ⟨21, _⟩ => ⟨S64x8192, .i32⟩
  | .hbm, ⟨22, _⟩ => ⟨S64x8192x1, .i32⟩
  | .hbm, ⟨23, _⟩ => ⟨S64x8192, .bf16⟩
  | .hbm, ⟨24, _⟩ => ⟨S8192x8192, .f32⟩
  | .local _ .vmem, ⟨0, _⟩ => ⟨S2048x64, .bf16⟩
  | .local _ .vmem, ⟨1, _⟩ => ⟨S2048x64, .bf16⟩
  | .local _ .vmem, ⟨2, _⟩ => ⟨S64x2048, .bf16⟩
  | .local _ .vmem, ⟨3, _⟩ => ⟨S64x2048, .bf16⟩
  | .local _ .vmem, ⟨4, _⟩ => ⟨S2048x2048, .f32⟩
  | .local _ .vmem, ⟨5, _⟩ => ⟨S2048x2048, .f32⟩
  | _, _ => ⟨S8192x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_c_2 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  gather_S16_S8192x64x1_S8192x64_n_0_n_n_0_2_1_wf : GatherDims.WF S16 S8192x64x1 S8192x64 [] [0] [] [0] [] 2 ![1]
  gather_S16_S64x8192x1_S64x8192_n_0_n_n_0_2_1_wf : GatherDims.WF S16 S64x8192x1 S64x8192 [] [0] [] [0] [] 2 ![1]
  dot_S2048x64_S64x2048_S2048x2048_1_0_0_1_n_n_wf : DotDims.WF S2048x64 S64x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .bf16 = 32 ∨ (Rect.block (s := S8192x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x8192.size a
  hwx0_1 : ∀ i : grid0.Coords, EltTy.bits .bf16 = 32 ∨ (Rect.block (s := S64x8192) S64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def gather_S16_S8192x64x1_S8192x64_n_0_n_n_0_2_1 : GatherDims S16 S8192x64x1 S8192x64 where
  offsetDims := []
  collapsedSliceDims := [0]
  operandBatchingDims := []
  startIndicesBatchingDims := []
  startIndexMap := [0]
  indexVectorDim := 2
  sliceSizes := ![1]
  wf := gather_S16_S8192x64x1_S8192x64_n_0_n_n_0_2_1_wf
def gather_S16_S64x8192x1_S64x8192_n_0_n_n_0_2_1 : GatherDims S16 S64x8192x1 S64x8192 where
  offsetDims := []
  collapsedSliceDims := [0]
  operandBatchingDims := []
  startIndicesBatchingDims := []
  startIndexMap := [0]
  indexVectorDim := 2
  sliceSizes := ![1]
  wf := gather_S16_S64x8192x1_S64x8192_n_0_n_n_0_2_1_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_call0_v7) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x8192 : Shape := ⟨2, ![64, 8192]⟩
abbrev S16 : Shape := ⟨1, ![16]⟩
abbrev S_ : Shape := ⟨0, ![]⟩
abbrev S8192x64x1 : Shape := ⟨3, ![8192, 64, 1]⟩
abbrev S64x8192x1 : Shape := ⟨3, ![64, 8192, 1]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .i32⟩
  | .hbm, ⟨1, _⟩ => ⟨S64x8192, .i32⟩
  | .hbm, ⟨2, _⟩ => ⟨S16, .f32⟩
  | .hbm, ⟨3, _⟩ => ⟨S16, .f32⟩
  | .hbm, ⟨4, _⟩ => ⟨S_, .i32⟩
  | .hbm, ⟨5, _⟩ => ⟨S8192x64, .i32⟩
  | .hbm, ⟨6, _⟩ => ⟨S8192x64, .i1⟩
  | .hbm, ⟨7, _⟩ => ⟨S_, .i32⟩
  | .hbm, ⟨8, _⟩ => ⟨S8192x64, .i32⟩
  | .hbm, ⟨9, _⟩ => ⟨S8192x64, .i32⟩
  | .hbm, ⟨10, _⟩ => ⟨S8192x64, .i32⟩
  | .hbm, ⟨11, _⟩ => ⟨S8192x64x1, .i32⟩
  | .hbm, ⟨12, _⟩ => ⟨S8192x64, .f32⟩
  | .hbm, ⟨13, _⟩ => ⟨S_, .i32⟩
  | .hbm, ⟨14, _⟩ => ⟨S64x8192, .i32⟩
  | .hbm, ⟨15, _⟩ => ⟨S64x8192, .i1⟩
  | .hbm, ⟨16, _⟩ => ⟨S_, .i32⟩
  | .hbm, ⟨17, _⟩ => ⟨S64x8192, .i32⟩
  | .hbm, ⟨18, _⟩ => ⟨S64x8192, .i32⟩
  | .hbm, ⟨19, _⟩ => ⟨S64x8192, .i32⟩
  | .hbm, ⟨20, _⟩ => ⟨S64x8192x1, .i32⟩
  | .hbm, ⟨21, _⟩ => ⟨S64x8192, .f32⟩
  | .hbm, ⟨22, _⟩ => ⟨S8192x8192, .f32⟩
  | _, _ => ⟨S8192x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  gather_S16_S8192x64x1_S8192x64_n_0_n_n_0_2_1_wf : GatherDims.WF S16 S8192x64x1 S8192x64 [] [0] [] [0] [] 2 ![1]
  gather_S16_S64x8192x1_S64x8192_n_0_n_n_0_2_1_wf : GatherDims.WF S16 S64x8192x1 S64x8192 [] [0] [] [0] [] 2 ![1]
  dot_S8192x64_S64x8192_S8192x8192_1_0_0_1_n_n_wf : DotDims.WF S8192x64 S64x8192 S8192x8192 [1] [0] [0] [1] [] []

variable [Facts₀]

def gather_S16_S8192x64x1_S8192x64_n_0_n_n_0_2_1 : GatherDims S16 S8192x64x1 S8192x64 where
  offsetDims := []
  collapsedSliceDims := [0]
  operandBatchingDims := []
  startIndicesBatchingDims := []
  startIndexMap := [0]
  indexVectorDim := 2
  sliceSizes := ![1]
  wf := gather_S16_S8192x64x1_S8192x64_n_0_n_n_0_2_1_wf
def gather_S16_S64x8192x1_S64x8192_n_0_n_n_0_2_1 : GatherDims S16 S64x8192x1 S64x8192 where
  offsetDims := []
  collapsedSliceDims := [0]
  operandBatchingDims := []
  startIndicesBatchingDims := []
  startIndexMap := [0]
  indexVectorDim := 2
  sliceSizes := ![1]
  wf := gather_S16_S64x8192x1_S64x8192_n_0_n_n_0_2_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Product.lean ====
/-
  The low-rank product, entry by entry.

  For a left factor A of 8192 rows and 64 columns and a right factor B of 64 rows and 8192 columns the product is
      C(p, q) = Σ_k A(p, k) · B(k, q),
  a sum of 64 products on the extended reals. Only commutativity-free reindexing is used below, so no entry has to be
  finite.

  A tile of C, 2048 rows by 2048 columns, needs 2048 rows of A (a row panel) and 2048 columns of B (a column panel): if
  the row panel holds the rows of A that the tile's rows name and the column panel holds the columns of B that the
  tile's columns name, then the product of the two panels is the restriction of C to the tile.
-/
import Idealize.ShloMosaic.PureOps.Ideal.Laws
import Idealize.ShloMosaic.Lib.ValueIdx
import proofs.«135082_j1408749273623_2_alg».proof.Proof.LibPlainDot

noncomputable section

namespace Cert.LowRank

open Idealize.ShloMosaic Idealize.ShloMosaic.ValueIdx

/-- The left factor's shape, the right factor's and the product's. -/
abbrev ShLeft : Shape := ⟨2, ![8192, 64]⟩
abbrev ShRight : Shape := ⟨2, ![64, 8192]⟩
abbrev ShProd : Shape := ⟨2, ![8192, 8192]⟩
/-- A row panel of the left factor, a column panel of the right factor and a tile of the product. -/
abbrev ShRowPanel : Shape := ⟨2, ![2048, 64]⟩
abbrev ShColPanel : Shape := ⟨2, ![64, 2048]⟩
abbrev ShTile : Shape := ⟨2, ![2048, 2048]⟩

/-- C(p, q) = Σ_k A(p, k) · B(k, q). -/
def product (A : ShLeft.Idx → EReal) (B : ShRight.Idx → EReal) : ShProd.Idx → EReal :=
  fun i => ∑ k : Fin 64, A (ix2 (i 0) k) * B (ix2 k (i 1))

/-- The product of a row panel and a column panel, at the tile index `j`, is C at the array index `i` when the
    panels' entries are A's and B's (through the placements `eL`, `eR`) and row `j 0` of the row panel is row `i 0` of
    A, column `j 1` of the column panel column `i 1` of B. -/
theorem panel_sum_eq (A : ShLeft.Idx → EReal) (B : ShRight.Idx → EReal)
    (xL : ShRowPanel.Idx → EReal) (xR : ShColPanel.Idx → EReal)
    (eL : ShRowPanel.Idx → ShLeft.Idx) (eR : ShColPanel.Idx → ShRight.Idx)
    (hL : ∀ y, xL y = A (eL y)) (hR : ∀ y, xR y = B (eR y))
    (j : ShTile.Idx) (i : ShProd.Idx)
    (hrow : ∀ k : Fin 64, eL (ix2 (j 0) k) = ix2 (i 0) k) (hcol : ∀ k : Fin 64, eR (ix2 k (j 1)) = ix2 k (i 1)) :
    ∑ k : Fin 64, xL (ix2 (j 0) k) * xR (ix2 k (j 1)) = product A B i := by
  unfold product
  refine Finset.sum_congr rfl fun k _ => ?_
  exact congrArg₂ (· * ·) ((hL _).trans (congrArg A (hrow k))) ((hR _).trans (congrArg B (hcol k)))

/-- The machine's matrix unit applied to the two panels with a zero accumulator computes that sum, whatever the
    operands' storage formats: on the extended reals a change of format is the identity. -/
theorem matmul_panels_apply {φ₁ φ₂ : FTy} (prec : Option ContractPrecision)
    (xL : FVec Ideal ShRowPanel φ₁) (xR : FVec Ideal ShColPanel φ₂) (j : ShTile.Idx) :
    FloatOps.matmul (DotDims.plain 2048 64 2048) prec xL xR (constant ShTile .f32 0x00000000#32) j
      = ∑ k : Fin 64, (xL (ix2 (j 0) k) : EReal) * (xR (ix2 k (j 1)) : EReal) :=
  Cert.LibPlainDot.matmul_plain_zero prec xL xR j

end Cert.LowRank

end
-- ==== Proof.KernelTiles.lean ====
/-
  The kernel's result array, tile by tile.

  The grid has 4 × 4 points; point (r, s) multiplies rows 2048·r … 2048·r + 2047 of the dequantized left factor (its
  row panel, all 64 columns) by columns 2048·s … 2048·s + 2047 of the dequantized right factor (its column panel, all
  64 rows) on the matrix unit, into a zero accumulator, and writes the 2048 × 2048 result to tile (r, s) of the output.
  On the extended reals that tile product is Σ_k A(p, k) · B(k, q) at the tile's own array indices, so every point
  writes the restriction of ONE array, the product C of the two factors, and the sixteen tiles fill the output: the
  row 2048·r + a lies in tile row r, the column 2048·s + b in tile column s.
-/
import proofs.«135082_j1408749273623_2_alg».proof.Proof.Gen.KernelIdeal.Value
import proofs.«135082_j1408749273623_2_alg».proof.Proof.Product

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.LowRank

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The body's arithmetic at a tile index: the sum over the 64 shared coordinates of row-panel entry times
    column-panel entry (the two reshapes are to the same shape; the accumulator is zero). -/
theorem body_apply (xL : Vec Ideal S2048x64 .bf16) (xR : Vec Ideal S64x2048 .bf16) (j : S2048x2048.Idx) :
    k0_pay1 xL xR j = ∑ k : Fin 64, (xL (ix2 (j 0) k) : EReal) * (xR (ix2 k (j 1)) : EReal) := by
  unfold k0_pay1
  rw [shapeCast_self, shapeCast_self]
  exact matmul_panels_apply none xL xR j

/-- The product of the dequantized factors as the region finds them. -/
abbrev C (c : Dev nD) : S8192x8192.Idx → EReal :=
  product (V m c main_call0_v7) (V m c main_call0_v15)

/-- Where the three windows sit at a grid point: the row panel's block row is the output tile's, its block column 0;
    the column panel's block row is 0, its block column the output tile's; the tile's block indices are at most 3. -/
theorem placement : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every tile of the 4 × 4 arrangement is some grid point's. -/
theorem every_tile : ∀ (r s : Fin 4), ∃ t : Fin cfg0.N, win0_2.index t = ![r.val, s.val] :=
  (by decide +kernel : ∀ (r s : Fin 4), ∃ t : Fin grid0.N, win0_2.index t = ![r.val, s.val])

/-- What point `t` writes back is tile `t` of the product C. -/
theorem written_eq (c : Dev nD) (t : Fin cfg0.N) :
    (dats m 0 c).flushed 2 t = ((cfg0.win 2).blk t).view.read (Elt Ideal) (C m c) := by
  rw [flushed2]
  unfold out0_2
  rw [View.canon_unit_zero origin]
  simp only [View.ld_unit_zero (S := S2048x64) origin, View.ld_unit_zero (S := S64x2048) origin]
  obtain ⟨e0, e1, e2, e3, e4, e5⟩ := placement t
  funext j
  show k0_pay1 (iblk m c 0 t) (iblk m c 1 t) j = C m c (((cfg0.win 2).blk t).view.emb j)
  refine (body_apply (iblk m c 0 t) (iblk m c 1 t) j).trans ?_
  refine panel_sum_eq (V m c main_call0_v7) (V m c main_call0_v15) (iblk m c 0 t) (iblk m c 1 t)
    (((cfg0.win 0).blk t).view.emb) (((cfg0.win 1).blk t).view.emb) (fun y => rfl) (fun y => rfl) j
    (((cfg0.win 2).blk t).view.emb j) ?_ ?_
  · intro k
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 64 + 1 * k.val = k.val; omega
  · intro k
    funext a; apply Fin.ext
    match a with
    | ⟨0, _⟩ => show win0_1.index t (0 : Fin 2) * 64 + 1 * k.val = k.val; omega
    | ⟨1, _⟩ => show win0_1.index t (1 : Fin 2) * 2048 + 1 * (j 1).val = win0_2.index t (1 : Fin 2) * 2048 + 1 * (j 1).val; omega

/-- An array index lies in point `t`'s tile iff each coordinate lies in the tile's range on its axis. -/
theorem mem_tile (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v0).slice (win0_2.rect t)).set ↔ _
  rw [View.set_slice_whole, Rect.mem_set_unit]
  exact Iff.rfl

/-- The sixteen tiles fill the output: index (p, q) lies in the tile of block row p / 2048 and block column q / 2048. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_tile ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- After the run the output array is the product C. -/
theorem result_eq (c : Dev nD) : (dats m 0 c).arrAt 2 cfg0.N = C m c :=
  (dats m 0 c).arrAt_eq_of_cover 2 (C m c) (fun t _ => written_eq m c t) tiles_cover

/-- The kernel's run: the result is the product of the dequantized factors as the region finds them, the arguments
    are unchanged. -/
theorem run : θ_run defs (onTc (τ := τ) (main (F := Ideal))) ⟨m, fun _ => 0, ρ⟩ fun r => ∀ c : Dev nD,
      r.2.mem ((c : Thread nD τ).loc main_v0) = C m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c), (h c).2⟩) (run_blocks m ρ)

end Cert.KernelIdeal.Tiles

end
-- ==== Proof.ReferenceProduct.lean ====
/-
  The reference's result as the low-rank product.

  The reference dequantizes both factors by a table lookup and contracts them with one `dot_general` over the shared
  axis of extent 64. On the extended reals that contraction is, entry by entry, Σ_k A(p, k) · B(k, q): the left operand is
  read at (p, k), the right at (k, q).
-/
import proofs.«135082_j1408749273623_2_alg».proof.Proof.Gen.ReferenceIdeal.Read
import proofs.«135082_j1408749273623_2_alg».proof.Proof.Product

noncomputable section

namespace Cert.ReferenceIdeal.AsProduct

open Cert.ReferenceIdeal Cert.ReferenceIdeal.Gen Cert.ReferenceIdeal.Read Idealize.ShloMosaic Idealize.ShloMosaic.TcCoe Idealize.SL.Sem
open Idealize.ShloMosaic.ValueIdx Cert.LowRank

/-- The left operand's index at output (p, q) and shared coordinate k is (p, k). -/
theorem left_index (i : S8192x8192.Idx) (k : Fin 64) : lidx_main_v14 i k = ix2 (i 0) k :=
  funext fun a => Fin.ext (by match a with | ⟨0, _⟩ => rfl | ⟨1, _⟩ => rfl)

/-- The right operand's index is (k, q). -/
theorem right_index (i : S8192x8192.Idx) (k : Fin 64) : ridx_main_v14 i k = ix2 k (i 1) :=
  funext fun a => Fin.ext (by match a with | ⟨0, _⟩ => rfl | ⟨1, _⟩ => rfl)

/-- The reference's last stage is the product of its two dequantized factors. -/
theorem result_eq (x0 : (⟨S8192x64, .i32⟩ : BufTy).Contents (Elt Ideal)) (x1 : (⟨S64x8192, .i32⟩ : BufTy).Contents (Elt Ideal))
    (x2 x3 : (⟨S16, .f32⟩ : BufTy).Contents (Elt Ideal)) :
    val_main_v14 (F := Ideal) x0 x1 x2 x3 = product (val_main_v6 (F := Ideal) x0 x2) (val_main_v13 (F := Ideal) x1 x3) := by
  funext i
  rw [val_main_v14_apply]
  show _ = ∑ k : Fin 64, (val_main_v6 (F := Ideal) x0 x2) (ix2 (i 0) k) * (val_main_v13 (F := Ideal) x1 x3) (ix2 k (i 1))
  refine Finset.sum_congr rfl fun k _ => ?_
  exact congrArg₂ (· * ·) (congrArg _ (left_index i k)) (congrArg _ (right_index i k))

end Cert.ReferenceIdeal.AsProduct

end
-- ==== Proof.Factors.lean ====
/-
  The two factors the kernel region is launched on.

  Before the region the program dequantizes on the host: each codebook is narrowed to the 16-bit format (the identity on
  the extended reals), each assignment array is normalised (a negative index has the table length 16 added) and used to
  look the codebook up. These are the reference's own lookups of the same codebooks at the same normalised indices, so
  the factors the region finds are the reference's dequantized factors.
-/
import proofs.«135082_j1408749273623_2_alg».proof.Proof.Gen.KernelIdeal.Frame
import proofs.«135082_j1408749273623_2_alg».proof.Proof.Gen.ReferenceIdeal.Read
import Idealize.ShloMosaic.Lib.StableHlo.Run

noncomputable section

namespace Cert.KernelIdeal.Factors

open Cert.KernelIdeal Cert.KernelIdeal.Gen Idealize.ShloMosaic Idealize.ShloMosaic.TcCoe Idealize.SL.Sem

variable (m : (ℓ : Loc nD τ sig) → Buf (Elt Ideal) ℓ)

/-- The left factor as the region finds it: the lookup of the first codebook at the first assignment array. -/
theorem left_eq (c : Dev nD) :
    (V m c main_call0_v7 : S8192x64.Idx → EReal)
      = Cert.ReferenceIdeal.Read.val_main_v6 (F := Ideal) (m ((c : Thread nD τ).loc main_arg0)) (m ((c : Thread nD τ).loc main_arg2)) := by
  dsimp only [V, hostOps0]
  after_results
  rfl

/-- The right factor as the region finds it: the lookup of the second codebook at the second assignment array. -/
theorem right_eq (c : Dev nD) :
    (V m c main_call0_v15 : S64x8192.Idx → EReal)
      = Cert.ReferenceIdeal.Read.val_main_v13 (F := Ideal) (m ((c : Thread nD τ).loc main_arg1)) (m ((c : Thread nD τ).loc main_arg3)) := by
  dsimp only [V, hostOps0]
  after_results
  rfl

end Cert.KernelIdeal.Factors

end
-- ==== Proof.lean ====
/- The proof of `Cert.Claim`: a low-rank product of two dequantized factors, tiled over a 4 × 4 grid, against the
   same product computed by one contraction.

   Both programs look a 16-entry codebook up at an assignment array, once for the left factor A (8192 × 64) and once for
   the right factor B (64 × 8192), after the same normalisation of the indices; the kernel narrows the codebooks to a
   16-bit format first, which changes nothing on the extended reals. The reference contracts A and B in one step; the
   kernel multiplies a row panel of A by a column panel of B at each of 16 grid points on the matrix unit with a zero
   accumulator and writes one 2048 × 2048 tile. Entry by entry both are C(p, q) = Σ_k A(p, k) · B(k, q)
   (Proof/Product.lean); the tiles are restrictions of C and fill the output (Proof/KernelTiles.lean); the reference's
   contraction is C (Proof/ReferenceProduct.lean); and the factors the region finds are the reference's
   (Proof/Factors.lean). No entry needs to be finite: the sum is only reindexed, never rearranged. -/
import proofs.«135082_j1408749273623_2_alg».proof.Defs
import proofs.«135082_j1408749273623_2_alg».proof.Proof.Gen.Kernel
import proofs.«135082_j1408749273623_2_alg».proof.Proof.Gen.Kernel.Skeleton
import proofs.«135082_j1408749273623_2_alg».proof.Proof.Gen.Kernel.Launch
import proofs.«135082_j1408749273623_2_alg».proof.Proof.Gen.Kernel.Points
import proofs.«135082_j1408749273623_2_alg».proof.Proof.Gen.Kernel.Frame
import proofs.«135082_j1408749273623_2_alg».proof.Proof.Gen.KernelIdeal
import proofs.«135082_j1408749273623_2_alg».proof.Proof.Gen.KernelIdeal.Skeleton
import proofs.«135082_j1408749273623_2_alg».proof.Proof.Gen.KernelIdeal.Launch
import proofs.«135082_j1408749273623_2_alg».proof.Proof.Gen.KernelIdeal.Points
import proofs.«135082_j1408749273623_2_alg».proof.Proof.Gen.KernelIdeal.Frame
import proofs.«135082_j1408749273623_2_alg».proof.Proof.Gen.ReferenceIdeal
import proofs.«135082_j1408749273623_2_alg».proof.Proof.Gen.Pre_finite_inputs
import proofs.«135082_j1408749273623_2_alg».proof.Proof.Gen.KernelIdeal.Value
import proofs.«135082_j1408749273623_2_alg».proof.Proof.Gen.ReferenceIdeal.Run
import proofs.«135082_j1408749273623_2_alg».proof.Proof.Gen.ReferenceIdeal.Read
import proofs.«135082_j1408749273623_2_alg».proof.Proof.KernelTiles
import proofs.«135082_j1408749273623_2_alg».proof.Proof.ReferenceProduct
import proofs.«135082_j1408749273623_2_alg».proof.Proof.Factors
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference is a straight line of host operations: its run, with the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the four arguments both programs end with the product C of the dequantized factors:
    the kernel's tiles assemble it, the reference's contraction is it, and the factors are the same lookups. -/
theorem algebraic : Cert.algebraic_KernelIdeal_ReferenceIdeal := by
  intro m ρ m' ρ' _ hagree
  refine ⟨fun c => Cert.KernelIdeal.Tiles.C m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.AsProduct.result_eq,
    (hagree c).1, (hagree c).2.1, (hagree c).2.2.1, (hagree c).2.2.2]
  show _ = Cert.LowRank.product (Cert.KernelIdeal.Gen.V m c Cert.KernelIdeal.main_call0_v7)
    (Cert.KernelIdeal.Gen.V m c Cert.KernelIdeal.main_call0_v15)
  rw [Cert.KernelIdeal.Factors.left_eq, Cert.KernelIdeal.Factors.right_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
